-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x131072 : Shape := ⟨2, ![256, 131072]⟩
abbrev S256x2048 : Shape := ⟨2, ![256, 2048]⟩
abbrev S64x256 : Shape := ⟨2, ![64, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S256x131072 : S_.BroadcastsInDim S256x131072 (![] : Fin 0 → Fin S256x131072.rank)
  reducesTo_S256x131072_S_d0_1 : S256x131072.ReducesTo [0, 1] S_
  h_S_ : 0 < S_.numel
  bcast_S_S64x256 : S_.BroadcastsInDim S64x256 (![] : Fin 0 → Fin S64x256.rank)
  reducesTo_S64x256_S_d0_1 : S64x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part3 {F : FTy → Type} [FloatOps F] (main_arg7 : FVec F S256 .f32) (main_v48 : IVec S_ 1) (main_v49 : FVec F S1 .f32) (main_v50 : FVec F S1 .f32) : IVec S_ 1 :=
  let main_v51 : IVec S1 1 := cmpf .olt main_v49 main_v50
  let main_c_19 : IVec S_ 1 := constantI S_ 1 1#1
  let main_v52 : IVec S_ 1 := (fun x v => Host.reduce IntOp.andi x v reducesTo_S1_S_d0 h_S_) main_v51 main_c_19
  let main_v53 : IVec S_ 1 := andi main_v48 main_v52
  let main_cst_20 : FVec F S_ .f32 := constant S_ .f32 0x3727C5AC#32
  let main_v54 : FVec F S256 .f32 := broadcastInDim S256 ![] bcast_S_S256 main_cst_20
  let main_v55 : FVec F S256 .f32 := addf main_arg7 main_v54
  let main_cst_21 : FVec F S_ .f32 := constant S_ .f32 0x00000000#32
  let main_v56 : FVec F S256 .f32 := broadcastInDim S256 ![] bcast_S_S256 main_cst_21
  let main_v57 : IVec S256 1 := cmpf .ogt main_v55 main_v56
  let main_c_22 : IVec S_ 1 := constantI S_ 1 1#1
  let main_v58 : IVec S_ 1 := (fun x v => Host.reduce IntOp.andi x v reducesTo_S256_S_d0 h_S_) main_v57 main_c_22
  let main_v59 : IVec S_ 1 := andi main_v53 main_v58
  main_v59

def fn_part2 {F : FTy → Type} [FloatOps F] (main_arg7 : FVec F S256 .f32) (main_arg8 : FVec F S256x256 .f32) (main_arg9 : FVec F S256 .f32) (main_arg10 : FVec F S256x1 .f32) (main_arg11 : FVec F S1 .f32) (main_v33 : IVec S_ 1) : IVec S_ 1 :=
  let main_v34 : FVec F S256x256 .f32 := Host.absf main_arg8
  let main_cst_12 : FVec F S_ .f32 := constant S_ .f32 0x7F800000#32
  let main_v35 : FVec F S256x256 .f32 := broadcastInDim S256x256 ![] bcast_S_S256x256 main_cst_12
  let main_v36 : IVec S256x256 1 := cmpf .olt main_v34 main_v35
  let main_c_13 : IVec S_ 1 := constantI S_ 1 1#1
  let main_v37 : IVec S_ 1 := (fun x v => Host.reduce IntOp.andi x v reducesTo_S256x256_S_d0_1 h_S_) main_v36 main_c_13
  let main_v38 : IVec S_ 1 := andi main_v33 main_v37
  let main_v39 : FVec F S256 .f32 := Host.absf main_arg9
  let main_cst_14 : FVec F S_ .f32 := constant S_ .f32 0x7F800000#32
  let main_v40 : FVec F S256 .f32 := broadcastInDim S256 ![] bcast_S_S256 main_cst_14
  let main_v41 : IVec S256 1 := cmpf .olt main_v39 main_v40
  let main_c_15 : IVec S_ 1 := constantI S_ 1 1#1
  let main_v42 : IVec S_ 1 := (fun x v => Host.reduce IntOp.andi x v reducesTo_S256_S_d0 h_S_) main_v41 main_c_15
  let main_v43 : IVec S_ 1 := andi main_v38 main_v42
  let main_v44 : FVec F S256x1 .f32 := Host.absf main_arg10
  let main_cst_16 : FVec F S_ .f32 := constant S_ .f32 0x7F800000#32
  let main_v45 : FVec F S256x1 .f32 := broadcastInDim S256x1 ![] bcast_S_S256x1 main_cst_16
  let main_v46 : IVec S256x1 1 := cmpf .olt main_v44 main_v45
  let main_c_17 : IVec S_ 1 := constantI S_ 1 1#1
  let main_v47 : IVec S_ 1 := (fun x v => Host.reduce IntOp.andi x v reducesTo_S256x1_S_d0_1 h_S_) main_v46 main_c_17
  let main_v48 : IVec S_ 1 := andi main_v43 main_v47
  let main_v49 : FVec F S1 .f32 := Host.absf main_arg11
  let main_cst_18 : FVec F S_ .f32 := constant S_ .f32 0x7F800000#32
  let main_v50 : FVec F S1 .f32 := broadcastInDim S1 ![] bcast_S_S1 main_cst_18
  fn_part3 (F := F) main_arg7 main_v48 main_v49 main_v50

def fn_part1 {F : FTy → Type} [FloatOps F] (main_arg5 : FVec F S256 .f32) (main_arg6 : FVec F S256 .f32) (main_arg7 : FVec F S256 .f32) (main_arg8 : FVec F S256x256 .f32) (main_arg9 : FVec F S256 .f32) (main_arg10 : FVec F S256x1 .f32) (main_arg11 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256 .f32 := Host.absf main_arg7
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_arg10 main_arg11 main_v33

def fn {F : FTy → Type} [FloatOps F] (main_arg0 : FVec F S256x131072 .f32) (main_arg1 : IVec S256x2048 32) (main_arg2 : FVec F S64x256 .f32) (main_arg3 : FVec F S256 .f32) (main_arg4 : FVec F S256 .f32) (main_arg5 : FVec F S256 .f32) (main_arg6 : FVec F S256 .f32) (main_arg7 : FVec F S256 .f32) (main_arg8 : FVec F S256x256 .f32) (main_arg9 : FVec F S256 .f32) (main_arg10 : FVec F S256x1 .f32) (main_arg11 : FVec F S1 .f32) : IVec S_ 1 :=
  let main_v0 : FVec F S256x131072 .f32 := Host.absf main_arg0
  let main_cst : FVec F S_ .f32 := constant S_ .f32 0x7F800000#32
  let main_v1 : FVec F S256x131072 .f32 := broadcastInDim S256x131072 ![] bcast_S_S256x131072 main_cst
  let main_v2 : IVec S256x131072 1 := cmpf .olt main_v0 main_v1
  let main_c : IVec S_ 1 := constantI S_ 1 1#1
  let main_v3 : IVec S_ 1 := (fun x v => Host.reduce IntOp.andi x v reducesTo_S256x131072_S_d0_1 h_S_) main_v2 main_c
  let main_v4 : FVec F S64x256 .f32 := Host.absf main_arg2
  let main_cst_0 : FVec F S_ .f32 := constant S_ .f32 0x7F800000#32
  let main_v5 : FVec F S64x256 .f32 := broadcastInDim S64x256 ![] bcast_S_S64x256 main_cst_0
  let main_v6 : IVec S64x256 1 := cmpf .olt main_v4 main_v5
  let main_c_1 : IVec S_ 1 := constantI S_ 1 1#1
  let main_v7 : IVec S_ 1 := (fun x v => Host.reduce IntOp.andi x v reducesTo_S64x256_S_d0_1 h_S_) main_v6 main_c_1
  let main_v8 : IVec S_ 1 := andi main_v3 main_v7
  let main_v9 : FVec F S256 .f32 := Host.absf main_arg3
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_arg8 main_arg9 main_arg10 main_arg11 main_v13 main_v16
-- ==== Kernel.lean ====
abbrev S256x131072 : Shape := ⟨2, ![256, 131072]⟩
abbrev S256x2048 : Shape := ⟨2, ![256, 2048]⟩
abbrev S64x256 : Shape := ⟨2, ![64, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S256x2048x64 : Shape := ⟨3, ![256, 2048, 64]⟩
abbrev S1x256 : Shape := ⟨2, ![1, 256]⟩
abbrev S1x1 : Shape := ⟨2, ![1, 1]⟩
abbrev S16x256x64 : Shape := ⟨3, ![16, 256, 64]⟩
abbrev S16x256 : Shape := ⟨2, ![16, 256]⟩
abbrev S4096x64 : Shape := ⟨2, ![4096, 64]⟩
abbrev S4096x256 : Shape := ⟨2, ![4096, 256]⟩
abbrev S4096x1 : Shape := ⟨2, ![4096, 1]⟩

abbrev nBuf : Space → Nat
  | .hbm => 21
  | .vmem => 16
  | .smem => 0
  | _ => 0

abbrev bufTy : (tb : Table) → Fin (tcTables nBuf tb) → BufTy
  | .hbm, ⟨0, _⟩ => ⟨S256x131072, .f32⟩
  | .hbm, ⟨1, _⟩ => ⟨S256x2048, .i32⟩
  | .hbm, ⟨2, _⟩ => ⟨S64x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S256x2048x64, .f32⟩
  | .hbm, ⟨13, _⟩ => ⟨S1x256, .f32⟩
  | .hbm, ⟨14, _⟩ => ⟨S1x256, .f32⟩
  | .hbm, ⟨15, _⟩ => ⟨S1x256, .f32⟩
  | .hbm, ⟨16, _⟩ => ⟨S1x256, .f32⟩
  | .hbm, ⟨17, _⟩ => ⟨S1x256, .f32⟩
  | .hbm, ⟨18, _⟩ => ⟨S1x256, .f32⟩
  | .hbm, ⟨19, _⟩ => ⟨S1x1, .f32⟩
  | .hbm, ⟨20, _⟩ => ⟨S256x2048, .f32⟩
  | .local _ .vmem, ⟨0, _⟩ => ⟨S16x256x64, .f32⟩
  | .local _ .vmem, ⟨1, _⟩ => ⟨S16x256x64, .f32⟩
  | .local _ .vmem, ⟨2, _⟩ => ⟨S16x256, .i32⟩
  | .local _ .vmem, ⟨3, _⟩ => ⟨S16x256, .i32⟩
  | .local _ .vmem, ⟨4, _⟩ => ⟨S64x256, .f32⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S1x256, .f32⟩
  | .local _ .vmem, ⟨10, _⟩ => ⟨S256x256, .f32⟩
  | .local _ .vmem, ⟨11, _⟩ => ⟨S1x256, .f32⟩
  | .local _ .vmem, ⟨12, _⟩ => ⟨S256x1, .f32⟩
  | .local _ .vmem, ⟨13, _⟩ => ⟨S1x1, .f32⟩
  | .local _ .vmem, ⟨14, _⟩ => ⟨S16x256, .f32⟩
  | .local _ .vmem, ⟨15, _⟩ => ⟨S16x256, .f32⟩
  | _, _ => ⟨S256x131072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S16x256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x256 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S256x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 2 → Memref sig .tc .vmem S16x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

class Facts₀ : Prop where
  shapeCasts_S256x131072_S256x2048x64 : S256x131072.ShapeCasts S256x2048x64
  shapeCasts_S256_S1x256 : S256.ShapeCasts S1x256
  shapeCasts_S1_S1x1 : S1.ShapeCasts S1x1
  inb_S16x256x64_S16x256x64_0_0_0 : ∀ a, (![0, 0, 0] : Fin 3 → Nat) a + S16x256x64.size a ≤ S16x256x64.size a
  h_S16x256x64 : 0 < S16x256x64.numel
  shapeCasts_S16x256x64_S16x256x64 : S16x256x64.ShapeCasts S16x256x64
  shapeCasts_S16x256x64_S4096x64 : S16x256x64.ShapeCasts S4096x64
  bitsLt_bf16_f32 : FTy.bits .bf16 < FTy.bits .f32
  inb_S64x256_S64x256_0_0 : ∀ a, (![0, 0] : Fin 2 → Nat) a + S64x256.size a ≤ S64x256.size a
  h_S64x256 : 0 < S64x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S4096x256 : S1x256.Broadcasts S4096x256
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4096x1 : S1x1.Broadcasts S4096x1
  shapeCasts_S4096x1_S16x256 : S4096x1.ShapeCasts S16x256
  inb_S16x256_S16x256_0_0 : ∀ a, (![0, 0] : Fin 2 → Nat) a + S16x256.size a ≤ S16x256.size a
  h_S16x256 : 0 < S16x256.numel
  dot_S4096x64_S64x256_S4096x256_1_0_0_1_n_n_wf : DotDims.WF S4096x64 S64x256 S4096x256 [1] [0] [0] [1] [] []
  dot_S4096x256_S256x256_S4096x256_1_0_0_1_n_n_wf : DotDims.WF S4096x256 S256x256 S4096x256 [1] [0] [0] [1] [] []
  dot_S4096x256_S256x1_S4096x1_1_0_0_1_n_n_wf : DotDims.WF S4096x256 S256x1 S4096x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x64.size a ≤ S256x2048x64.size a
  hwx0_0 : ∀ i : grid0.Coords, EltTy.bits .f32 = 32 ∨ (Rect.block (s := S256x2048x64) S16x256x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x256.size a ≤ S256x2048.size a
  hwx0_1 : ∀ i : grid0.Coords, EltTy.bits .i32 = 32 ∨ (Rect.block (s := S256x2048) S16x256.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .f32 = 32 ∨ (Rect.block (s := S64x256) S64x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x256.size a ≤ S1x256.size a
  hwx0_6 : ∀ i : grid0.Coords, EltTy.bits .f32 = 32 ∨ (Rect.block (s := S1x256) S1x256.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x256.size a ≤ S1x256.size a
  hwx0_7 : ∀ i : grid0.Coords, EltTy.bits .f32 = 32 ∨ (Rect.block (s := S1x256) S1x256.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x256.size a ≤ S256x256.size a
  hwx0_8 : ∀ i : grid0.Coords, EltTy.bits .f32 = 32 ∨ (Rect.block (s := S256x256) S256x256.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x256.size a ≤ S1x256.size a
  hwx0_9 : ∀ i : grid0.Coords, EltTy.bits .f32 = 32 ∨ (Rect.block (s := S1x256) S1x256.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S256x1.size a ≤ S256x1.size a
  hwx0_10 : ∀ i : grid0.Coords, EltTy.bits .f32 = 32 ∨ (Rect.block (s := S256x1) S256x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S16x256.size a ≤ S256x2048.size a
  hwx0_12 : ∀ i : grid0.Coords, EltTy.bits .f32 = 32 ∨ (Rect.block (s := S256x2048) S16x256.size (cc0_transform_12 i) (hinb0_12 i)).WholeWords (EltTy.packing .f32)

variable [Facts₀]

def dot_S4096x64_S64x256_S4096x256_1_0_0_1_n_n : DotDims S4096x64 S64x256 S4096x256 where
  lhsContracting := [1]
  rhsContracting := [0]
  lhsNonContracting := [0]
  rhsNonContracting := [1]
  lhsBatch := []
  rhsBatch := []
  wf := dot_S4096x64_S64x256_S4096x256_1_0_0_1_n_n_wf
def dot_S4096x256_S256x256_S4096x256_1_0_0_1_n_n : DotDims S4096x256 S256x256 S4096x256 where
  lhsContracting := [1]
  rhsContracting := [0]
  lhsNonContracting := [0]
  rhsNonContracting := [1]
  lhsBatch := []
  rhsBatch := []
  wf := dot_S4096x256_S256x256_S4096x256_1_0_0_1_n_n_wf
def dot_S4096x256_S256x1_S4096x1_1_0_0_1_n_n : DotDims S4096x256 S256x1 S4096x1 where
  lhsContracting := [1]
  rhsContracting := [0]
  lhsNonContracting := [0]
  rhsNonContracting := [1]
  lhsBatch := []
  rhsBatch := []
  wf := dot_S4096x256_S256x1_S4096x1_1_0_0_1_n_n_wf

abbrev win0_0 : Pipeline.Window sig grid0 :=
  Pipeline.Window.ofSpec (Memref.whole main_v0) S16x256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S16x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v4) S1x256.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v5) S1x256.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg8) S256x256.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v6) S1x256.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg10) S256x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v7) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v8) S16x256.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S256x131072 : Shape := ⟨2, ![256, 131072]⟩
abbrev S256x2048 : Shape := ⟨2, ![256, 2048]⟩
abbrev S64x256 : Shape := ⟨2, ![64, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S524288x64 : Shape := ⟨2, ![524288, 64]⟩
abbrev S524288x256 : Shape := ⟨2, ![524288, 256]⟩
abbrev S1x256 : Shape := ⟨2, ![1, 256]⟩
abbrev S_ : Shape := ⟨0, ![]⟩
abbrev S524288x1 : Shape := ⟨2, ![524288, 1]⟩
abbrev S1x1 : Shape := ⟨2, ![1, 1]⟩

abbrev nBuf : Space → Nat
  | .hbm => 53
  | .vmem => 0
  | .smem => 0
  | _ => 0

abbrev bufTy : (tb : Table) → Fin (tcTables nBuf tb) → BufTy
  | .hbm, ⟨0, _⟩ => ⟨S256x131072, .f32⟩
  | .hbm, ⟨1, _⟩ => ⟨S256x2048, .i32⟩
  | .hbm, ⟨2, _⟩ => ⟨S64x256, .f32⟩
  | .hbm, ⟨3, _⟩ => ⟨S256, .f32⟩
  | .hbm, ⟨4, _⟩ => ⟨S256, .f32⟩
  | .hbm, ⟨5, _⟩ => ⟨S256, .f32⟩
  | .hbm, ⟨6, _⟩ => ⟨S256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x1, .f32⟩
  | .hbm, ⟨11, _⟩ => ⟨S1, .f32⟩
  | .hbm, ⟨12, _⟩ => ⟨S524288x64, .f32⟩
  | .hbm, ⟨13, _⟩ => ⟨S524288x256, .f32⟩
  | .hbm, ⟨14, _⟩ => ⟨S1x256, .f32⟩
  | .hbm, ⟨15, _⟩ => ⟨S524288x256, .f32⟩
  | .hbm, ⟨16, _⟩ => ⟨S524288x256, .f32⟩
  | .hbm, ⟨17, _⟩ => ⟨S1x256, .f32⟩
  | .hbm, ⟨18, _⟩ => ⟨S524288x256, .f32⟩
  | .hbm, ⟨19, _⟩ => ⟨S524288x256, .f32⟩
  | .hbm, ⟨20, _⟩ => ⟨S_, .f32⟩
  | .hbm, ⟨21, _⟩ => ⟨S256, .f32⟩
  | .hbm, ⟨22, _⟩ => ⟨S256, .f32⟩
  | .hbm, ⟨23, _⟩ => ⟨S256, .f32⟩
  | .hbm, ⟨24, _⟩ => ⟨S256, .f32⟩
  | .hbm, ⟨25, _⟩ => ⟨S1x256, .f32⟩
  | .hbm, ⟨26, _⟩ => ⟨S524288x256, .f32⟩
  | .hbm, ⟨27, _⟩ => ⟨S524288x256, .f32⟩
  | .hbm, ⟨28, _⟩ => ⟨S1x256, .f32⟩
  | .hbm, ⟨29, _⟩ => ⟨S524288x256, .f32⟩
  | .hbm, ⟨30, _⟩ => ⟨S524288x256, .f32⟩
  | .hbm, ⟨31, _⟩ => ⟨S_, .f32⟩
  | .hbm, ⟨32, _⟩ => ⟨S524288x256, .f32⟩
  | .hbm, ⟨33, _⟩ => ⟨S524288x256, .f32⟩
  | .hbm, ⟨34, _⟩ => ⟨S524288x256, .f32⟩
  | .hbm, ⟨35, _⟩ => ⟨S1x256, .f32⟩
  | .hbm, ⟨36, _⟩ => ⟨S524288x256, .f32⟩
  | .hbm, ⟨37, _⟩ => ⟨S524288x256, .f32⟩
  | .hbm, ⟨38, _⟩ => ⟨S_, .f32⟩
  | .hbm, ⟨39, _⟩ => ⟨S524288x256, .f32⟩
  | .hbm, ⟨40, _⟩ => ⟨S524288x256, .f32⟩
  | .hbm, ⟨41, _⟩ => ⟨S524288x1, .f32⟩
  | .hbm, ⟨42, _⟩ => ⟨S1x1, .f32⟩
  | .hbm, ⟨43, _⟩ => ⟨S524288x1, .f32⟩
  | .hbm, ⟨44, _⟩ => ⟨S524288x1, .f32⟩
  | .hbm, ⟨45, _⟩ => ⟨S524288x1, .i32⟩
  | .hbm, ⟨46, _⟩ => ⟨S_, .i32⟩
  | .hbm, ⟨47, _⟩ => ⟨S524288x1, .i32⟩
  | .hbm, ⟨48, _⟩ => ⟨S524288x1, .i1⟩
  | .hbm, ⟨49, _⟩ => ⟨S_, .f32⟩
  | .hbm, ⟨50, _⟩ => ⟨S524288x1, .f32⟩
  | .hbm, ⟨51, _⟩ => ⟨S524288x1, .f32⟩
  | .hbm, ⟨52, _⟩ => ⟨S256x2048, .f32⟩
  | _, _ => ⟨S256x131072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_cst : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_call0_cst : Ref sig .tc := ⟨.hbm, 31, rfl⟩
abbrev main_call0_v0 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_call1_cst : Ref sig .tc := ⟨.hbm, 38, rfl⟩
abbrev main_call1_v0 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_c : Ref sig .tc := ⟨.hbm, 46, rfl⟩
abbrev main_v29 : Ref sig .tc := ⟨.hbm, 47, rfl⟩
abbrev main_v30 : Ref sig .tc := ⟨.hbm, 48, rfl⟩
abbrev main_cst_0 : Ref sig .tc := ⟨.hbm, 49, rfl⟩
abbrev main_call2_v0 : Ref sig .tc := ⟨.hbm, 50, rfl⟩
abbrev main_v31 : Ref sig .tc := ⟨.hbm, 51, rfl⟩
abbrev main_v32 : Ref sig .tc := ⟨.hbm, 52, rfl⟩

abbrev nD : Nat := 1
abbrev τ : Topo := Topo.v7x

variable {F : FTy → Type} [FloatOps F]

class Facts₀ : Prop where
  shapeCasts_S256x131072_S524288x64 : S256x131072.ShapeCasts S524288x64
  bcast_S256_S1x256_1 : S256.BroadcastsInDim S1x256 (![1] : Fin 1 → Fin S1x256.rank)
  bcast_S1x256_S524288x256_0_1 : S1x256.BroadcastsInDim S524288x256 (![0, 1] : Fin 2 → Fin S524288x256.rank)
  bcast_S_S256 : S_.BroadcastsInDim S256 (![] : Fin 0 → Fin S256.rank)
  bcast_S_S524288x256 : S_.BroadcastsInDim S524288x256 (![] : Fin 0 → Fin S524288x256.rank)
  bcast_S1_S1x1_1 : S1.BroadcastsInDim S1x1 (![1] : Fin 1 → Fin S1x1.rank)
  bcast_S1x1_S524288x1_0_1 : S1x1.BroadcastsInDim S524288x1 (![0, 1] : Fin 2 → Fin S524288x1.rank)
  shapeCasts_S256x2048_S524288x1 : S256x2048.ShapeCasts S524288x1
  bcast_S_S524288x1 : S_.BroadcastsInDim S524288x1 (![] : Fin 0 → Fin S524288x1.rank)
  shapeCasts_S524288x1_S256x2048 : S524288x1.ShapeCasts S256x2048
  dot_S524288x64_S64x256_S524288x256_1_0_0_1_n_n_wf : DotDims.WF S524288x64 S64x256 S524288x256 [1] [0] [0] [1] [] []
  dot_S524288x256_S256x256_S524288x256_1_0_0_1_n_n_wf : DotDims.WF S524288x256 S256x256 S524288x256 [1] [0] [0] [1] [] []
  dot_S524288x256_S256x1_S524288x1_1_0_0_1_n_n_wf : DotDims.WF S524288x256 S256x1 S524288x1 [1] [0] [0] [1] [] []

variable [Facts₀]

def dot_S524288x64_S64x256_S524288x256_1_0_0_1_n_n : DotDims S524288x64 S64x256 S524288x256 where
  lhsContracting := [1]
  rhsContracting := [0]
  lhsNonContracting := [0]
  rhsNonContracting := [1]
  lhsBatch := []
  rhsBatch := []
  wf := dot_S524288x64_S64x256_S524288x256_1_0_0_1_n_n_wf
def dot_S524288x256_S256x256_S524288x256_1_0_0_1_n_n : DotDims S524288x256 S256x256 S524288x256 where
  lhsContracting := [1]
  rhsContracting := [0]
  lhsNonContracting := [0]
  rhsNonContracting := [1]
  lhsBatch := []
  rhsBatch := []
  wf := dot_S524288x256_S256x256_S524288x256_1_0_0_1_n_n_wf
def dot_S524288x256_S256x1_S524288x1_1_0_0_1_n_n : DotDims S524288x256 S256x1 S524288x1 where
  lhsContracting := [1]
  rhsContracting := [0]
  lhsNonContracting := [0]
  rhsNonContracting := [1]
  lhsBatch := []
  rhsBatch := []
  wf := dot_S524288x256_S256x1_S524288x1_1_0_0_1_n_n_wf

class Facts : Prop extends Facts₀ where

variable [Facts]
-- ==== Proof.Network.lean ====
/-
  The mathematics both programs compute, stated once. Every node of every batch element carries 64 features;
  a three-layer perceptron maps them to one score: an affine layer into 256 hidden units followed by a
  per-unit normalisation `(h - mean) · scale + shift` and a rectifier, a second affine layer with a
  rectifier, and a final affine layer to a single number. Where the node's mask word is zero the score is
  replaced by a fixed fill value. The normalisation's per-unit `scale` is a parameter here: the kernel and
  the reference spell it differently, and the two spellings are joined elsewhere.

  The observation array stores a batch element's nodes one after the other, 64 features each, so node `n`'s
  feature `q` sits in column `n · 64 + q`.

  Also here: four re-layouts read at an index, at the literal shapes the kernel uses — the 16 × 256 nodes of
  a block laid out as 4096 rows and back, and a single row or a single number repeated down 4096 rows.
-/
import Idealize.ShloMosaic.PureOps.Ideal
import Idealize.ShloMosaic.Lib.ValueIdx
import Idealize.ShloMosaic.Lib.Pipeline.Value

open scoped BigOperators

noncomputable section

namespace Cert.Network

open Idealize.ShloMosaic Idealize.ShloMosaic.ValueIdx

/-- The variance shift, as the word both programs carry. -/
def eps : EReal := Ideal.ofBits .f32 0x3727C5AC#32

/-- The value written where the mask word is zero, as the word both programs carry. -/
def fill : EReal := Ideal.ofBits .f32 0xCCBEBC20#32

/-- One node's score from its 64 features `x`: three affine layers, the first normalised per hidden unit by
    `(· - rm) · sc + be`, the first two rectified. -/
def row (W1 : Fin 64 → Fin 256 → EReal) (b1 rm sc be : Fin 256 → EReal) (W2 : Fin 256 → Fin 256 → EReal)
    (b2 : Fin 256 → EReal) (W3 : Fin 256 → EReal) (b3 : EReal) (x : Fin 64 → EReal) : EReal :=
  (∑ k : Fin 256, max ((∑ l : Fin 256, max (((∑ q : Fin 64, x q * W1 q l) + b1 l - rm l) * sc l + be l) 0 * W2 l k) + b2 k) 0
    * W3 k) + b3

/-- The whole result: at batch element `i 0` and node `i 1`, the node's score where its mask word is nonzero,
    the fill value elsewhere. The normalisation's scale `sc` is given per hidden unit. -/
def scores (sc : Fin 256 → EReal) (obs : (⟨2, ![256, 131072]⟩ : Shape).Idx → EReal)
    (mask : (⟨2, ![256, 2048]⟩ : Shape).Idx → BitVec 32) (W1 : (⟨2, ![64, 256]⟩ : Shape).Idx → EReal)
    (b1 be rm : (⟨1, ![256]⟩ : Shape).Idx → EReal) (W2 : (⟨2, ![256, 256]⟩ : Shape).Idx → EReal)
    (b2 : (⟨1, ![256]⟩ : Shape).Idx → EReal) (W3 : (⟨2, ![256, 1]⟩ : Shape).Idx → EReal)
    (b3 : (⟨1, ![1]⟩ : Shape).Idx → EReal) : (⟨2, ![256, 2048]⟩ : Shape).Idx → EReal := fun i =>
  Scalar.select (IntOp.cmpi .ne (mask i) 0#32)
    (row (fun q l => W1 (ix2 q l)) (fun l => b1 (ix1 l)) (fun l => rm (ix1 l)) sc (fun l => be (ix1 l))
      (fun l k => W2 (ix2 l k)) (fun k => b2 (ix1 k)) (fun k => W3 (ix2 k 0)) (b3 (ix1 0))
      (fun q => obs (ix2 (i 0) ⟨(i 1).val * 64 + q.val, by
        have h1 : (i 1).val < 2048 := (i 1).isLt
        have hq : q.val < 64 := q.isLt
        omega⟩)))
    fill

/-- The kernel's spelling of the scale: gain times the reciprocal root of the shifted variance. -/
def scaleMul (gamma rv : (⟨1, ![256]⟩ : Shape).Idx → EReal) : Fin 256 → EReal := fun l =>
  gamma (ix1 l) * Ideal.rsqrt (rv (ix1 l) + eps)

/-- The reference's spelling of the scale: gain over the root of the shifted variance. -/
def scaleDiv (gamma rv : (⟨1, ![256]⟩ : Shape).Idx → EReal) : Fin 256 → EReal := fun l =>
  Ideal.div (gamma (ix1 l)) (Ideal.sqrt (rv (ix1 l) + eps))

/-! ## Re-layouts read at an index -/

variable {α : Type}

/-- A 16 × 256 block of nodes laid out as 4096 rows: row `a · 256 + b` is node `(a, b)`. -/
theorem rows_of_block (x : (⟨3, ![16, 256, 64]⟩ : Shape).Idx → α)
    (h : (⟨3, ![16, 256, 64]⟩ : Shape).ShapeCasts ⟨2, ![4096, 64]⟩) (a : Fin 16) (b : Fin 256) (q : Fin 64)
    (hp : a.val * 256 + b.val < 4096) :
    shapeCast ⟨2, ![4096, 64]⟩ x h (ix2 ⟨a.val * 256 + b.val, hp⟩ q) = x (ix3 a b q) :=
  shapeCast_apply x h _ _ (by
    rw [Shape.rowMajor_val_three, Shape.rowMajor_val_two]
    rfl)

/-- A column of 4096 scores laid back out as a 16 × 256 block: node `(a, b)` is row `a · 256 + b`. -/
theorem block_of_rows (x : (⟨2, ![4096, 1]⟩ : Shape).Idx → α)
    (h : (⟨2, ![4096, 1]⟩ : Shape).ShapeCasts ⟨2, ![16, 256]⟩) (a : Fin 16) (b : Fin 256)
    (hp : a.val * 256 + b.val < 4096) :
    shapeCast ⟨2, ![16, 256]⟩ x h (ix2 a b) = x (ix2 ⟨a.val * 256 + b.val, hp⟩ (0 : Fin 1)) :=
  shapeCast_apply x h _ _ (by
    rw [Shape.rowMajor_val_two, Shape.rowMajor_val_two]
    show (a.val * 256 + b.val) * 1 + 0 = a.val * 256 + b.val
    omega)

/-- One row of 256 numbers repeated down 4096 rows. -/
theorem repeat_row (x : (⟨2, ![1, 256]⟩ : Shape).Idx → α) (h : (⟨2, ![1, 256]⟩ : Shape).Broadcasts ⟨2, ![4096, 256]⟩)
    (r : Fin 4096) (j : Fin 256) : broadcastTo ⟨2, ![4096, 256]⟩ x h (ix2 r j) = x (ix2 (0 : Fin 1) j) :=
  broadcastTo_apply x h _ _ (fun a => match a with | ⟨0, _⟩ => rfl | ⟨1, _⟩ => rfl)

/-- One number repeated down 4096 rows. -/
theorem repeat_one (x : (⟨2, ![1, 1]⟩ : Shape).Idx → α) (h : (⟨2, ![1, 1]⟩ : Shape).Broadcasts ⟨2, ![4096, 1]⟩)
    (r : Fin 4096) (j : Fin 1) : broadcastTo ⟨2, ![4096, 1]⟩ x h (ix2 r j) = x (ix2 (0 : Fin 1) (0 : Fin 1)) :=
  broadcastTo_apply x h _ _ (fun a => match a with | ⟨0, _⟩ => rfl | ⟨1, _⟩ => rfl)

end Cert.Network

end
-- ==== Proof.KernelRead.lean ====
/-
  The kernel's arithmetic at one node of one block. A block holds 16 batch elements × 256 nodes × 64 features;
  the kernel lays its nodes out as 4096 rows, runs the three affine layers as matrix products over all rows at
  once, lays the 4096 scores back out as 16 × 256 and selects by the mask. Read at node `(a, b)` — row
  `a · 256 + b` — each matrix product is the sum over its contracted axis of the products of that row of
  the left factor with a column of the right factor (the accumulator it adds to is zero, and the change of
  float format of its operands is the identity on the extended reals), and every other operation acts
  entry by entry. So the block's entry at `(a, b)` is the node's score from its 64 features, under the
  kernel's spelling of the normalisation's scale, or the fill value where the mask word is zero.
-/
import proofs.«168998_j43997644980641_1_alg».proof.KernelIdeal
import proofs.«168998_j43997644980641_1_alg».proof.Proof.Gen.KernelIdeal.Skeleton
import proofs.«168998_j43997644980641_1_alg».proof.Proof.Network
import Idealize.ShloMosaic.PureOps.Ideal.Laws
import Idealize.ShloMosaic.Lib.ValueIdx
import Idealize.ShloMosaic.Lib.Pipeline.Value

open scoped BigOperators

noncomputable section

namespace Cert.KernelIdeal.NodeValue

open Cert.KernelIdeal Cert.KernelIdeal.Gen Idealize.ShloMosaic Idealize.ShloMosaic.ValueIdx

/-! ## A plain matrix product read at an entry

For a product of an `M × K` by a `K × N` matrix with one contracted axis, once the operand indices at
output entry `i` and contraction position `q` are known to be `(i 0, q)` on the left and `(q, i 1)` on the
right, the entry `(p, j)` of the product into a zero accumulator is `∑ k, l (p, k) · r (k, j)`: the sum over
the contraction's index type is re-indexed over `Fin K`. -/

theorem plain_product {M K N : ℕ} {φ₁ φ₂ : FTy} (D : DotDims ⟨2, ![M, K]⟩ ⟨2, ![K, N]⟩ ⟨2, ![M, N]⟩)
    (hr : D.contr.rank = 1) (hs : D.contr.size ⟨0, by omega⟩ = K)
    (l0 : ∀ (i : (⟨2, ![M, N]⟩ : Shape).Idx) (q : D.contr.Idx), (D.lhsIdx i q 0).val = (i 0).val)
    (l1 : ∀ (i : (⟨2, ![M, N]⟩ : Shape).Idx) (q : D.contr.Idx), (D.lhsIdx i q 1).val = (q ⟨0, by omega⟩).val)
    (r0 : ∀ (i : (⟨2, ![M, N]⟩ : Shape).Idx) (q : D.contr.Idx), (D.rhsIdx i q 0).val = (q ⟨0, by omega⟩).val)
    (r1 : ∀ (i : (⟨2, ![M, N]⟩ : Shape).Idx) (q : D.contr.Idx), (D.rhsIdx i q 1).val = (i 1).val)
    (l : FVec Ideal ⟨2, ![M, K]⟩ φ₁) (r : FVec Ideal ⟨2, ![K, N]⟩ φ₂) (p : Fin M) (j : Fin N) :
    matmul D none l r (constant ⟨2, ![M, N]⟩ .f32 0x00000000#32) (ix2 p j) = ∑ k : Fin K, l (ix2 p k) * r (ix2 k j) := by
  simp only [matmul]
  rw [Ideal.matmul_constant_zero_apply, ← Equiv.sum_comp (ValueIdx.contrEquiv1 D K hr hs).symm]
  refine Finset.sum_congr rfl fun k _ => ?_
  have hk := ValueIdx.contrEquiv1_symm_val D K hr hs k
  have el : D.lhsIdx (ix2 p j) ((ValueIdx.contrEquiv1 D K hr hs).symm k) = ix2 p k := funext fun a => Fin.ext (by
    match a with
    | ⟨0, _⟩ => exact l0 _ _
    | ⟨1, _⟩ => exact (l1 _ _).trans hk)
  have er : D.rhsIdx (ix2 p j) ((ValueIdx.contrEquiv1 D K hr hs).symm k) = ix2 k j := funext fun a => Fin.ext (by
    match a with
    | ⟨0, _⟩ => exact (r0 _ _).trans hk
    | ⟨1, _⟩ => exact r1 _ _)
  rw [el, er]

/-! ## The first layer's product: 4096 rows of 64 features against the 64 × 256 weights -/

theorem lhs_first_0 (i : S4096x256.Idx) (q : dot_S4096x64_S64x256_S4096x256_1_0_0_1_n_n.contr.Idx) :
    (dot_S4096x64_S64x256_S4096x256_1_0_0_1_n_n.lhsIdx i q 0).val = (i 0).val := by
  unfold DotDims.lhsIdx
  rw [dif_neg (show ¬(0 : Fin S4096x64.rank) ∈ dot_S4096x64_S64x256_S4096x256_1_0_0_1_n_n.lhsBatch by decide), dif_pos (show (0 : Fin S4096x64.rank) ∈ dot_S4096x64_S64x256_S4096x256_1_0_0_1_n_n.lhsNonContracting by decide)]
  rfl
theorem lhs_first_1 (i : S4096x256.Idx) (q : dot_S4096x64_S64x256_S4096x256_1_0_0_1_n_n.contr.Idx) :
    (dot_S4096x64_S64x256_S4096x256_1_0_0_1_n_n.lhsIdx i q 1).val = (q ⟨0, by decide⟩).val :=
  dot_S4096x64_S64x256_S4096x256_1_0_0_1_n_n.lhsIdx_val_of_single rfl i q
theorem rhs_first_0 (i : S4096x256.Idx) (q : dot_S4096x64_S64x256_S4096x256_1_0_0_1_n_n.contr.Idx) :
    (dot_S4096x64_S64x256_S4096x256_1_0_0_1_n_n.rhsIdx i q 0).val = (q ⟨0, by decide⟩).val :=
  dot_S4096x64_S64x256_S4096x256_1_0_0_1_n_n.rhsIdx_val_of_single rfl i q
theorem rhs_first_1 (i : S4096x256.Idx) (q : dot_S4096x64_S64x256_S4096x256_1_0_0_1_n_n.contr.Idx) :
    (dot_S4096x64_S64x256_S4096x256_1_0_0_1_n_n.rhsIdx i q 1).val = (i 1).val := by
  unfold DotDims.rhsIdx
  rw [dif_neg (show ¬(1 : Fin S64x256.rank) ∈ dot_S4096x64_S64x256_S4096x256_1_0_0_1_n_n.rhsBatch by decide), dif_pos (show (1 : Fin S64x256.rank) ∈ dot_S4096x64_S64x256_S4096x256_1_0_0_1_n_n.rhsNonContracting by decide)]
  rfl

theorem first_apply {φ₁ φ₂ : FTy} (l : FVec Ideal S4096x64 φ₁) (r : FVec Ideal S64x256 φ₂) (p : Fin 4096) (j : Fin 256) :
    matmul dot_S4096x64_S64x256_S4096x256_1_0_0_1_n_n none l r (constant S4096x256 .f32 0x00000000#32) (ix2 p j)
      = ∑ k : Fin 64, l (ix2 p k) * r (ix2 k j) :=
  plain_product dot_S4096x64_S64x256_S4096x256_1_0_0_1_n_n rfl rfl lhs_first_0 lhs_first_1 rhs_first_0 rhs_first_1 l r p j

/-! ## The second layer's product: 4096 rows of 256 hidden units against the 256 × 256 weights -/

theorem lhs_second_0 (i : S4096x256.Idx) (q : dot_S4096x256_S256x256_S4096x256_1_0_0_1_n_n.contr.Idx) :
    (dot_S4096x256_S256x256_S4096x256_1_0_0_1_n_n.lhsIdx i q 0).val = (i 0).val := by
  unfold DotDims.lhsIdx
  rw [dif_neg (show ¬(0 : Fin S4096x256.rank) ∈ dot_S4096x256_S256x256_S4096x256_1_0_0_1_n_n.lhsBatch by decide), dif_pos (show (0 : Fin S4096x256.rank) ∈ dot_S4096x256_S256x256_S4096x256_1_0_0_1_n_n.lhsNonContracting by decide)]
  rfl
theorem lhs_second_1 (i : S4096x256.Idx) (q : dot_S4096x256_S256x256_S4096x256_1_0_0_1_n_n.contr.Idx) :
    (dot_S4096x256_S256x256_S4096x256_1_0_0_1_n_n.lhsIdx i q 1).val = (q ⟨0, by decide⟩).val :=
  dot_S4096x256_S256x256_S4096x256_1_0_0_1_n_n.lhsIdx_val_of_single rfl i q
theorem rhs_second_0 (i : S4096x256.Idx) (q : dot_S4096x256_S256x256_S4096x256_1_0_0_1_n_n.contr.Idx) :
    (dot_S4096x256_S256x256_S4096x256_1_0_0_1_n_n.rhsIdx i q 0).val = (q ⟨0, by decide⟩).val :=
  dot_S4096x256_S256x256_S4096x256_1_0_0_1_n_n.rhsIdx_val_of_single rfl i q
theorem rhs_second_1 (i : S4096x256.Idx) (q : dot_S4096x256_S256x256_S4096x256_1_0_0_1_n_n.contr.Idx) :
    (dot_S4096x256_S256x256_S4096x256_1_0_0_1_n_n.rhsIdx i q 1).val = (i 1).val := by
  unfold DotDims.rhsIdx
  rw [dif_neg (show ¬(1 : Fin S256x256.rank) ∈ dot_S4096x256_S256x256_S4096x256_1_0_0_1_n_n.rhsBatch by decide), dif_pos (show (1 : Fin S256x256.rank) ∈ dot_S4096x256_S256x256_S4096x256_1_0_0_1_n_n.rhsNonContracting by decide)]
  rfl

theorem second_apply {φ₁ φ₂ : FTy} (l : FVec Ideal S4096x256 φ₁) (r : FVec Ideal S256x256 φ₂) (p : Fin 4096) (j : Fin 256) :
    matmul dot_S4096x256_S256x256_S4096x256_1_0_0_1_n_n none l r (constant S4096x256 .f32 0x00000000#32) (ix2 p j)
      = ∑ k : Fin 256, l (ix2 p k) * r (ix2 k j) :=
  plain_product dot_S4096x256_S256x256_S4096x256_1_0_0_1_n_n rfl rfl lhs_second_0 lhs_second_1 rhs_second_0 rhs_second_1 l r p j

/-! ## The last layer's product: 4096 rows of 256 hidden units against the 256 × 1 weights -/

theorem lhs_third_0 (i : S4096x1.Idx) (q : dot_S4096x256_S256x1_S4096x1_1_0_0_1_n_n.contr.Idx) :
    (dot_S4096x256_S256x1_S4096x1_1_0_0_1_n_n.lhsIdx i q 0).val = (i 0).val := by
  unfold DotDims.lhsIdx
  rw [dif_neg (show ¬(0 : Fin S4096x256.rank) ∈ dot_S4096x256_S256x1_S4096x1_1_0_0_1_n_n.lhsBatch by decide), dif_pos (show (0 : Fin S4096x256.rank) ∈ dot_S4096x256_S256x1_S4096x1_1_0_0_1_n_n.lhsNonContracting by decide)]
  rfl
theorem lhs_third_1 (i : S4096x1.Idx) (q : dot_S4096x256_S256x1_S4096x1_1_0_0_1_n_n.contr.Idx) :
    (dot_S4096x256_S256x1_S4096x1_1_0_0_1_n_n.lhsIdx i q 1).val = (q ⟨0, by decide⟩).val :=
  dot_S4096x256_S256x1_S4096x1_1_0_0_1_n_n.lhsIdx_val_of_single rfl i q
theorem rhs_third_0 (i : S4096x1.Idx) (q : dot_S4096x256_S256x1_S4096x1_1_0_0_1_n_n.contr.Idx) :
    (dot_S4096x256_S256x1_S4096x1_1_0_0_1_n_n.rhsIdx i q 0).val = (q ⟨0, by decide⟩).val :=
  dot_S4096x256_S256x1_S4096x1_1_0_0_1_n_n.rhsIdx_val_of_single rfl i q
theorem rhs_third_1 (i : S4096x1.Idx) (q : dot_S4096x256_S256x1_S4096x1_1_0_0_1_n_n.contr.Idx) :
    (dot_S4096x256_S256x1_S4096x1_1_0_0_1_n_n.rhsIdx i q 1).val = (i 1).val := by
  unfold DotDims.rhsIdx
  rw [dif_neg (show ¬(1 : Fin S256x1.rank) ∈ dot_S4096x256_S256x1_S4096x1_1_0_0_1_n_n.rhsBatch by decide), dif_pos (show (1 : Fin S256x1.rank) ∈ dot_S4096x256_S256x1_S4096x1_1_0_0_1_n_n.rhsNonContracting by decide)]
  rfl

theorem third_apply {φ₁ φ₂ : FTy} (l : FVec Ideal S4096x256 φ₁) (r : FVec Ideal S256x1 φ₂) (p : Fin 4096) (j : Fin 1) :
    matmul dot_S4096x256_S256x1_S4096x1_1_0_0_1_n_n none l r (constant S4096x1 .f32 0x00000000#32) (ix2 p j)
      = ∑ k : Fin 256, l (ix2 p k) * r (ix2 k j) :=
  plain_product dot_S4096x256_S256x1_S4096x1_1_0_0_1_n_n rfl rfl lhs_third_0 lhs_third_1 rhs_third_0 rhs_third_1 l r p j

/-! ## The block's entry at a node -/

/-- The entry at node `(a, b)` of what the body stores: the node's score from its 64 features `v0 (a, b, ·)`
    under the kernel's scale `gain · rsqrt (variance + ε)`, or the fill value where the mask word is zero. -/
theorem payload_apply (v0 : Vec Ideal S16x256x64 .f32) (v4 : Vec Ideal S64x256 .f32) (v7 v11 v13 v19 v25 : Vec Ideal S1x256 .f32)
    (v32 : Vec Ideal S256x256 .f32) (v35 : Vec Ideal S1x256 .f32) (v42 : Vec Ideal S256x1 .f32) (v45 : Vec Ideal S1x1 .f32)
    (v50 : Vec Ideal S16x256 .i32) (a : Fin 16) (b : Fin 256) :
    k0_pay1 (F := Ideal) (k0_pay2 (F := Ideal) v0 v4 v7 v11 v13 v19 v25 v32) v35 v42 v45 v50 (ix2 a b)
      = Scalar.select (IntOp.cmpi .ne (v50 (ix2 a b)) 0#32)
          (Network.row (fun q l => v4 (ix2 q l)) (fun l => v7 (ix2 (0 : Fin 1) l)) (fun l => v19 (ix2 (0 : Fin 1) l))
            (fun l => v11 (ix2 (0 : Fin 1) l) * Ideal.rsqrt (v13 (ix2 (0 : Fin 1) l) + Network.eps)) (fun l => v25 (ix2 (0 : Fin 1) l))
            (fun l k => v32 (ix2 l k)) (fun k => v35 (ix2 (0 : Fin 1) k)) (fun k => v42 (ix2 k (0 : Fin 1))) (v45 (ix2 (0 : Fin 1) (0 : Fin 1)))
            (fun q => v0 (ix3 a b q)))
          Network.fill := by
  have hp : a.val * 256 + b.val < 4096 := by
    have ha : a.val < 16 := a.isLt
    have hb : b.val < 256 := b.isLt
    omega
  unfold k0_pay1 k0_pay2 Network.row
  simp only [select_apply, Network.block_of_rows _ _ a b hp, addf_apply, subf_apply, mulf_apply, maximumf_apply, truncf_apply,
    broadcast_apply, first_apply, second_apply, third_apply, Network.repeat_row, Network.repeat_one, shapeCast_self,
    Network.rows_of_block, rsqrt, cmpi, Ideal.rsqrt_def, Ideal.ofBits_def, Ideal.ofBits_zero_f32, Network.eps, Network.fill]

/-- The same at an entry `j` of the block given whole, node `(j 0, j 1)`. -/
theorem payload_at (v0 : Vec Ideal S16x256x64 .f32) (v4 : Vec Ideal S64x256 .f32) (v7 v11 v13 v19 v25 : Vec Ideal S1x256 .f32)
    (v32 : Vec Ideal S256x256 .f32) (v35 : Vec Ideal S1x256 .f32) (v42 : Vec Ideal S256x1 .f32) (v45 : Vec Ideal S1x1 .f32)
    (v50 : Vec Ideal S16x256 .i32) (j : S16x256.Idx) :
    k0_pay1 (F := Ideal) (k0_pay2 (F := Ideal) v0 v4 v7 v11 v13 v19 v25 v32) v35 v42 v45 v50 j
      = Scalar.select (IntOp.cmpi .ne (v50 j) 0#32)
          (Network.row (fun q l => v4 (ix2 q l)) (fun l => v7 (ix2 (0 : Fin 1) l)) (fun l => v19 (ix2 (0 : Fin 1) l))
            (fun l => v11 (ix2 (0 : Fin 1) l) * Ideal.rsqrt (v13 (ix2 (0 : Fin 1) l) + Network.eps)) (fun l => v25 (ix2 (0 : Fin 1) l))
            (fun l k => v32 (ix2 l k)) (fun k => v35 (ix2 (0 : Fin 1) k)) (fun k => v42 (ix2 k (0 : Fin 1))) (v45 (ix2 (0 : Fin 1) (0 : Fin 1)))
            (fun q => v0 (ix3 (j 0) (j 1) q)))
          Network.fill := by
  have key : ∀ j' : S16x256.Idx, j' = ix2 (j 0) (j 1) →
      k0_pay1 (F := Ideal) (k0_pay2 (F := Ideal) v0 v4 v7 v11 v13 v19 v25 v32) v35 v42 v45 v50 j'
        = Scalar.select (IntOp.cmpi .ne (v50 j') 0#32)
            (Network.row (fun q l => v4 (ix2 q l)) (fun l => v7 (ix2 (0 : Fin 1) l)) (fun l => v19 (ix2 (0 : Fin 1) l))
              (fun l => v11 (ix2 (0 : Fin 1) l) * Ideal.rsqrt (v13 (ix2 (0 : Fin 1) l) + Network.eps)) (fun l => v25 (ix2 (0 : Fin 1) l))
              (fun l k => v32 (ix2 l k)) (fun k => v35 (ix2 (0 : Fin 1) k)) (fun k => v42 (ix2 k (0 : Fin 1))) (v45 (ix2 (0 : Fin 1) (0 : Fin 1)))
              (fun q => v0 (ix3 (j 0) (j 1) q)))
            Network.fill := by
    intro j' hj'
    subst hj'
    exact payload_apply v0 v4 v7 v11 v13 v19 v25 v32 v35 v42 v45 v50 (j 0) (j 1)
  exact key j (eq_ix2 j)

end Cert.KernelIdeal.NodeValue

end
-- ==== Proof.BlockValue.lean ====
/-
  From blocks to the whole array. The kernel runs over a 16 × 8 grid; grid point `(ti, tj)` computes the
  16 × 256 block of scores for batch elements `16·ti … 16·ti + 15` and nodes `256·tj … 256·tj + 255`, from the
  matching 16 × 256 × 64 block of observations and 16 × 256 block of mask words and from the whole weight
  arrays. The 128 blocks tile the 256 × 2048 result, so after the run the result array is, entry by entry,
  the node's score under the kernel's scale, or the fill value where the mask word is zero.
-/
import proofs.«168998_j43997644980641_1_alg».proof.Proof.Gen.KernelIdeal.Value
import proofs.«168998_j43997644980641_1_alg».proof.Proof.KernelRead
import proofs.«168998_j43997644980641_1_alg».proof.Proof.Network
import Idealize.ShloMosaic.Lib.Pipeline.Value
import Idealize.ShloMosaic.Lib.StableHlo.Run
import Idealize.ShloMosaic.Lib.ValueIdx

open scoped BigOperators

noncomputable section

namespace Cert.KernelIdeal.ArrayValue

open Cert.KernelIdeal Cert.KernelIdeal.Gen Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The arrays the region finds

Before the region the program re-lays the observations as 256 × 2048 × 64 and each per-unit vector as a
single row; the region's windows read those re-laid arrays. -/

theorem V_obs (c : Dev nD) : (V m c main_v0 : S256x2048x64.Idx → EReal)
    = shapeCast S256x2048x64 (m ((c : Thread nD τ).loc main_arg0)) shapeCasts_S256x131072_S256x2048x64 := by
  dsimp only [V, hostOps0]; after_results; rfl

theorem V_b1 (c : Dev nD) : (V m c main_v1 : S1x256.Idx → EReal)
    = shapeCast S1x256 (m ((c : Thread nD τ).loc main_arg3)) shapeCasts_S256_S1x256 := by
  dsimp only [V, hostOps0]; after_results; rfl

theorem V_gamma (c : Dev nD) : (V m c main_v2 : S1x256.Idx → EReal)
    = shapeCast S1x256 (m ((c : Thread nD τ).loc main_arg4)) shapeCasts_S256_S1x256 := by
  dsimp only [V, hostOps0]; after_results; rfl

theorem V_beta (c : Dev nD) : (V m c main_v3 : S1x256.Idx → EReal)
    = shapeCast S1x256 (m ((c : Thread nD τ).loc main_arg5)) shapeCasts_S256_S1x256 := by
  dsimp only [V, hostOps0]; after_results; rfl

theorem V_mean (c : Dev nD) : (V m c main_v4 : S1x256.Idx → EReal)
    = shapeCast S1x256 (m ((c : Thread nD τ).loc main_arg6)) shapeCasts_S256_S1x256 := by
  dsimp only [V, hostOps0]; after_results; rfl

theorem V_var (c : Dev nD) : (V m c main_v5 : S1x256.Idx → EReal)
    = shapeCast S1x256 (m ((c : Thread nD τ).loc main_arg7)) shapeCasts_S256_S1x256 := by
  dsimp only [V, hostOps0]; after_results; rfl

theorem V_b2 (c : Dev nD) : (V m c main_v6 : S1x256.Idx → EReal)
    = shapeCast S1x256 (m ((c : Thread nD τ).loc main_arg9)) shapeCasts_S256_S1x256 := by
  dsimp only [V, hostOps0]; after_results; rfl

theorem V_b3 (c : Dev nD) : (V m c main_v7 : S1x1.Idx → EReal)
    = shapeCast S1x1 (m ((c : Thread nD τ).loc main_arg11)) shapeCasts_S1_S1x1 := by
  dsimp only [V, hostOps0]; after_results; rfl

theorem zeros2 : (![0, 0] : Fin 2 → Nat) = fun _ => 0 := funext fun a => by fin_cases a <;> rfl
theorem zeros3 : (![0, 0, 0] : Fin 3 → Nat) = fun _ => 0 := funext fun a => by fin_cases a <;> rfl

/-- The result array as one function of the argument arrays. -/
abbrev result (c : Dev nD) : S256x2048.Idx → EReal :=
  Network.scores (Network.scaleMul (m ((c : Thread nD τ).loc main_arg4)) (m ((c : Thread nD τ).loc main_arg7)))
    (m ((c : Thread nD τ).loc main_arg0)) (m ((c : Thread nD τ).loc main_arg1)) (m ((c : Thread nD τ).loc main_arg2))
    (m ((c : Thread nD τ).loc main_arg3)) (m ((c : Thread nD τ).loc main_arg5)) (m ((c : Thread nD τ).loc main_arg6))
    (m ((c : Thread nD τ).loc main_arg8)) (m ((c : Thread nD τ).loc main_arg9)) (m ((c : Thread nD τ).loc main_arg10))
    (m ((c : Thread nD τ).loc main_arg11))

/-! ## The printed index maps, decided over the 128 grid points

The observation and mask windows move with the output window; every weight window stays at block `(0, 0)`;
the output's block indices run over 16 × 8. -/

theorem idx_obs : ∀ t : Fin cfg0.N, win0_0.index t (0 : Fin 3) = win0_12.index t (0 : Fin 2)
    ∧ win0_0.index t (1 : Fin 3) = win0_12.index t (1 : Fin 2) ∧ win0_0.index t (2 : Fin 3) = 0 :=
  (by decide +kernel : ∀ t : Fin grid0.N, _)

theorem idx_mask : ∀ t : Fin cfg0.N, win0_1.index t (0 : Fin 2) = win0_12.index t (0 : Fin 2)
    ∧ win0_1.index t (1 : Fin 2) = win0_12.index t (1 : Fin 2) :=
  (by decide +kernel : ∀ t : Fin grid0.N, _)

theorem idx_weights : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) = 0
    ∧ win0_10.index t (0 : Fin 2) = 0 ∧ win0_10.index t (1 : Fin 2) = 0
    ∧ win0_11.index t (0 : Fin 2) = 0 ∧ win0_11.index t (1 : Fin 2) = 0 :=
  (by decide +kernel : ∀ t : Fin grid0.N, _)

theorem idx_range : ∀ t : Fin cfg0.N, win0_12.index t (0 : Fin 2) ≤ 15 ∧ win0_12.index t (1 : Fin 2) ≤ 7 :=
  (by decide +kernel : ∀ t : Fin grid0.N, _)

theorem idx_onto : ∀ (q0 : Fin 16) (q1 : Fin 8), ∃ t : Fin cfg0.N, win0_12.index t = ![q0.val, q1.val] :=
  (by decide +kernel : ∀ (q0 : Fin 16) (q1 : Fin 8), ∃ t : Fin grid0.N, win0_12.index t = ![q0.val, q1.val])

/-! ## Each window's block read where the output's block says

A block's coordinate on an axis is its block index times the block's extent plus the coordinate inside the
block. -/

theorem read_mask (c : Dev nD) (t : Fin cfg0.N) (j : S16x256.Idx) :
    iblk m c 1 t j = m ((c : Thread nD τ).loc main_arg1) (((cfg0.win 12).blk t).view.emb j) := by
  show V m c main_arg1 (((cfg0.win 1).blk t).view.emb j) = _
  rw [V_main_arg1]
  obtain ⟨e0, e1⟩ := idx_mask t
  refine congrArg _ (funext fun a => Fin.ext ?_)
  match a with
  | ⟨0, _⟩ => show win0_1.index t (0 : Fin 2) * 16 + 1 * (j 0).val = win0_12.index t (0 : Fin 2) * 16 + 1 * (j 0).val; omega
  | ⟨1, _⟩ => show win0_1.index t (1 : Fin 2) * 256 + 1 * (j 1).val = win0_12.index t (1 : Fin 2) * 256 + 1 * (j 1).val; omega

theorem read_w1 (c : Dev nD) (t : Fin cfg0.N) (q : Fin 64) (l : Fin 256) :
    iblk m c 2 t (ix2 q l) = m ((c : Thread nD τ).loc main_arg2) (ix2 q l) := by
  show V m c main_arg2 (((cfg0.win 2).blk t).view.emb (ix2 q l)) = _
  rw [V_main_arg2]
  obtain ⟨e0, e1, -⟩ := idx_weights t
  refine congrArg _ (funext fun a => Fin.ext ?_)
  match a with
  | ⟨0, _⟩ => show win0_2.index t (0 : Fin 2) * 64 + 1 * q.val = q.val; omega
  | ⟨1, _⟩ => show win0_2.index t (1 : Fin 2) * 256 + 1 * l.val = l.val; omega

theorem read_w2 (c : Dev nD) (t : Fin cfg0.N) (l k : Fin 256) :
    iblk m c 8 t (ix2 l k) = m ((c : Thread nD τ).loc main_arg8) (ix2 l k) := by
  show V m c main_arg8 (((cfg0.win 8).blk t).view.emb (ix2 l k)) = _
  rw [V_main_arg8]
  obtain ⟨-, -, -, -, -, -, -, -, -, -, -, -, e0, e1, -⟩ := idx_weights t
  refine congrArg _ (funext fun a => Fin.ext ?_)
  match a with
  | ⟨0, _⟩ => show win0_8.index t (0 : Fin 2) * 256 + 1 * l.val = l.val; omega
  | ⟨1, _⟩ => show win0_8.index t (1 : Fin 2) * 256 + 1 * k.val = k.val; omega

theorem read_w3 (c : Dev nD) (t : Fin cfg0.N) (k : Fin 256) :
    iblk m c 10 t (ix2 k (0 : Fin 1)) = m ((c : Thread nD τ).loc main_arg10) (ix2 k (0 : Fin 1)) := by
  show V m c main_arg10 (((cfg0.win 10).blk t).view.emb (ix2 k (0 : Fin 1))) = _
  rw [V_main_arg10]
  obtain ⟨-, -, -, -, -, -, -, -, -, -, -, -, -, -, -, -, e0, e1, -⟩ := idx_weights t
  refine congrArg _ (funext fun a => Fin.ext ?_)
  match a with
  | ⟨0, _⟩ => show win0_10.index t (0 : Fin 2) * 256 + 1 * k.val = k.val; omega
  | ⟨1, _⟩ => show win0_10.index t (1 : Fin 2) * 1 + 1 * 0 = 0; omega

/-- The first layer's bias: entry `l` of the single row the region finds is entry `l` of the argument vector. -/
theorem read_b1 (c : Dev nD) (t : Fin cfg0.N) (l : Fin 256) :
    iblk m c 3 t (ix2 (0 : Fin 1) l) = m ((c : Thread nD τ).loc main_arg3) (ix1 l) := by
  show V m c main_v1 (((cfg0.win 3).blk t).view.emb (ix2 (0 : Fin 1) l)) = _
  rw [V_b1]
  obtain ⟨-, -, e0, e1, -⟩ := idx_weights t
  refine shapeCast_apply _ _ _ _ ?_
  show (S256.rowMajor (ix1 l)).val = (S1x256.rowMajor (((cfg0.win 3).blk t).view.emb (ix2 (0 : Fin 1) l))).val
  rw [Shape.rowMajor_val_one, Shape.rowMajor_val_two]
  show l.val = (win0_3.index t (0 : Fin 2) * 1 + 1 * 0) * 256 + (win0_3.index t (1 : Fin 2) * 256 + 1 * l.val)
  omega

/-- The normalisation's gain. -/
theorem read_gamma (c : Dev nD) (t : Fin cfg0.N) (l : Fin 256) :
    iblk m c 4 t (ix2 (0 : Fin 1) l) = m ((c : Thread nD τ).loc main_arg4) (ix1 l) := by
  show V m c main_v2 (((cfg0.win 4).blk t).view.emb (ix2 (0 : Fin 1) l)) = _
  rw [V_gamma]
  obtain ⟨-, -, -, -, e0, e1, -⟩ := idx_weights t
  refine shapeCast_apply _ _ _ _ ?_
  show (S256.rowMajor (ix1 l)).val = (S1x256.rowMajor (((cfg0.win 4).blk t).view.emb (ix2 (0 : Fin 1) l))).val
  rw [Shape.rowMajor_val_one, Shape.rowMajor_val_two]
  show l.val = (win0_4.index t (0 : Fin 2) * 1 + 1 * 0) * 256 + (win0_4.index t (1 : Fin 2) * 256 + 1 * l.val)
  omega

/-- The normalisation's shift. -/
theorem read_beta (c : Dev nD) (t : Fin cfg0.N) (l : Fin 256) :
    iblk m c 5 t (ix2 (0 : Fin 1) l) = m ((c : Thread nD τ).loc main_arg5) (ix1 l) := by
  show V m c main_v3 (((cfg0.win 5).blk t).view.emb (ix2 (0 : Fin 1) l)) = _
  rw [V_beta]
  obtain ⟨-, -, -, -, -, -, e0, e1, -⟩ := idx_weights t
  refine shapeCast_apply _ _ _ _ ?_
  show (S256.rowMajor (ix1 l)).val = (S1x256.rowMajor (((cfg0.win 5).blk t).view.emb (ix2 (0 : Fin 1) l))).val
  rw [Shape.rowMajor_val_one, Shape.rowMajor_val_two]
  show l.val = (win0_5.index t (0 : Fin 2) * 1 + 1 * 0) * 256 + (win0_5.index t (1 : Fin 2) * 256 + 1 * l.val)
  omega

/-- The running mean. -/
theorem read_mean (c : Dev nD) (t : Fin cfg0.N) (l : Fin 256) :
    iblk m c 6 t (ix2 (0 : Fin 1) l) = m ((c : Thread nD τ).loc main_arg6) (ix1 l) := by
  show V m c main_v4 (((cfg0.win 6).blk t).view.emb (ix2 (0 : Fin 1) l)) = _
  rw [V_mean]
  obtain ⟨-, -, -, -, -, -, -, -, e0, e1, -⟩ := idx_weights t
  refine shapeCast_apply _ _ _ _ ?_
  show (S256.rowMajor (ix1 l)).val = (S1x256.rowMajor (((cfg0.win 6).blk t).view.emb (ix2 (0 : Fin 1) l))).val
  rw [Shape.rowMajor_val_one, Shape.rowMajor_val_two]
  show l.val = (win0_6.index t (0 : Fin 2) * 1 + 1 * 0) * 256 + (win0_6.index t (1 : Fin 2) * 256 + 1 * l.val)
  omega

/-- The running variance. -/
theorem read_var (c : Dev nD) (t : Fin cfg0.N) (l : Fin 256) :
    iblk m c 7 t (ix2 (0 : Fin 1) l) = m ((c : Thread nD τ).loc main_arg7) (ix1 l) := by
  show V m c main_v5 (((cfg0.win 7).blk t).view.emb (ix2 (0 : Fin 1) l)) = _
  rw [V_var]
  obtain ⟨-, -, -, -, -, -, -, -, -, -, e0, e1, -⟩ := idx_weights t
  refine shapeCast_apply _ _ _ _ ?_
  show (S256.rowMajor (ix1 l)).val = (S1x256.rowMajor (((cfg0.win 7).blk t).view.emb (ix2 (0 : Fin 1) l))).val
  rw [Shape.rowMajor_val_one, Shape.rowMajor_val_two]
  show l.val = (win0_7.index t (0 : Fin 2) * 1 + 1 * 0) * 256 + (win0_7.index t (1 : Fin 2) * 256 + 1 * l.val)
  omega

/-- The second layer's bias. -/
theorem read_b2 (c : Dev nD) (t : Fin cfg0.N) (k : Fin 256) :
    iblk m c 9 t (ix2 (0 : Fin 1) k) = m ((c : Thread nD τ).loc main_arg9) (ix1 k) := by
  show V m c main_v6 (((cfg0.win 9).blk t).view.emb (ix2 (0 : Fin 1) k)) = _
  rw [V_b2]
  obtain ⟨-, -, -, -, -, -, -, -, -, -, -, -, -, -, e0, e1, -⟩ := idx_weights t
  refine shapeCast_apply _ _ _ _ ?_
  show (S256.rowMajor (ix1 k)).val = (S1x256.rowMajor (((cfg0.win 9).blk t).view.emb (ix2 (0 : Fin 1) k))).val
  rw [Shape.rowMajor_val_one, Shape.rowMajor_val_two]
  show k.val = (win0_9.index t (0 : Fin 2) * 1 + 1 * 0) * 256 + (win0_9.index t (1 : Fin 2) * 256 + 1 * k.val)
  omega

/-- The last layer's bias, a single number. -/
theorem read_b3 (c : Dev nD) (t : Fin cfg0.N) :
    iblk m c 11 t (ix2 (0 : Fin 1) (0 : Fin 1)) = m ((c : Thread nD τ).loc main_arg11) (ix1 (0 : Fin 1)) := by
  show V m c main_v7 (((cfg0.win 11).blk t).view.emb (ix2 (0 : Fin 1) (0 : Fin 1))) = _
  rw [V_b3]
  obtain ⟨-, -, -, -, -, -, -, -, -, -, -, -, -, -, -, -, -, -, e0, e1⟩ := idx_weights t
  refine shapeCast_apply _ _ _ _ ?_
  show (S1.rowMajor (ix1 (0 : Fin 1))).val = (S1x1.rowMajor (((cfg0.win 11).blk t).view.emb (ix2 (0 : Fin 1) (0 : Fin 1)))).val
  rw [Shape.rowMajor_val_one, Shape.rowMajor_val_two]
  show 0 = (win0_11.index t (0 : Fin 2) * 1 + 1 * 0) * 1 + (win0_11.index t (1 : Fin 2) * 1 + 1 * 0)
  omega

/-- The observations: feature `q` of node `(j 0, j 1)` of the block at `t` is the observation array's entry at the
    node's batch element and column `node · 64 + q`, the node being where the output's block puts `j`. -/
theorem read_obs (c : Dev nD) (t : Fin cfg0.N) (j : S16x256.Idx) (q : Fin 64) (i : S256x2048.Idx)
    (h0 : (i 0).val = win0_12.index t (0 : Fin 2) * 16 + 1 * (j 0).val)
    (h1 : (i 1).val = win0_12.index t (1 : Fin 2) * 256 + 1 * (j 1).val) (hb : (i 1).val * 64 + q.val < 131072) :
    iblk m c 0 t (ix3 (j 0) (j 1) q) = m ((c : Thread nD τ).loc main_arg0) (ix2 (i 0) ⟨(i 1).val * 64 + q.val, hb⟩) := by
  show V m c main_v0 (((cfg0.win 0).blk t).view.emb (ix3 (j 0) (j 1) q)) = _
  rw [V_obs]
  obtain ⟨e0, e1, e2⟩ := idx_obs t
  refine shapeCast_apply _ _ _ _ ?_
  show (S256x131072.rowMajor (ix2 (i 0) ⟨(i 1).val * 64 + q.val, hb⟩)).val
    = (S256x2048x64.rowMajor (((cfg0.win 0).blk t).view.emb (ix3 (j 0) (j 1) q))).val
  rw [Shape.rowMajor_val_two, Shape.rowMajor_val_three]
  show (i 0).val * 131072 + ((i 1).val * 64 + q.val)
    = ((win0_0.index t (0 : Fin 3) * 16 + 1 * (j 0).val) * 2048 + (win0_0.index t (1 : Fin 3) * 256 + 1 * (j 1).val)) * 64
      + (win0_0.index t (2 : Fin 3) * 64 + 1 * q.val)
  omega

/-! ## What a point writes back, and the whole array -/

theorem flushed_eq (c : Dev nD) (t : Fin cfg0.N) :
    (dats m 0 c).flushed 12 t = ((cfg0.win 12).blk t).view.read (Elt Ideal) (result m c) := by
  rw [Value.flushed12]
  unfold out0_12
  rw [View.canon_unit_zero zeros2]
  simp only [View.ld_unit_zero (S := S16x256x64) zeros3, View.ld_unit_zero (S := S64x256) zeros2, View.ld_unit_zero (S := S1x256) zeros2,
    View.ld_unit_zero (S := S256x256) zeros2, View.ld_unit_zero (S := S256x1) zeros2, View.ld_unit_zero (S := S1x1) zeros2,
    View.ld_unit_zero (S := S16x256) zeros2]
  funext j
  refine (NodeValue.payload_at (iblk m c 0 t) (iblk m c 2 t) (iblk m c 3 t) (iblk m c 4 t) (iblk m c 7 t) (iblk m c 6 t)
    (iblk m c 5 t) (iblk m c 8 t) (iblk m c 9 t) (iblk m c 10 t) (iblk m c 11 t) (iblk m c 1 t) j).trans ?_
  show _ = result m c (((cfg0.win 12).blk t).view.emb j)
  have hobs : (fun q : Fin 64 => iblk m c 0 t (ix3 (j 0) (j 1) q))
      = fun q : Fin 64 => m ((c : Thread nD τ).loc main_arg0) (ix2 ((((cfg0.win 12).blk t).view.emb j : S256x2048.Idx) 0)
          ⟨((((cfg0.win 12).blk t).view.emb j : S256x2048.Idx) 1).val * 64 + q.val, by
            have h1 : ((((cfg0.win 12).blk t).view.emb j : S256x2048.Idx) 1).val < 2048 := ((((cfg0.win 12).blk t).view.emb j : S256x2048.Idx) 1).isLt
            have hq : q.val < 64 := q.isLt
            omega⟩) :=
    funext fun q => read_obs m c t j q _ rfl rfl _
  simp only [hobs, read_mask m c t j, read_w1 m c t, read_w2 m c t, read_w3 m c t, read_b1 m c t, read_gamma m c t, read_beta m c t,
    read_mean m c t, read_var m c t, read_b2 m c t, read_b3 m c t, result, Network.scores]
  rfl

/-- An entry of the array is in point `t`'s block iff each coordinate is in the block's range on its axis. -/
theorem mem_blk (t : Fin cfg0.N) (i : S256x2048.Idx) :
    i ∈ ((cfg0.win 12).blk t).view.set ↔ ∀ a : Fin 2, win0_12.index t a * S16x256.size a ≤ (i a).val
      ∧ (i a).val < win0_12.index t a * S16x256.size a + S16x256.size a := by
  show i ∈ ((View.whole main_v8).slice (win0_12.rect t)).set ↔ _
  rw [View.set_slice_whole, Rect.mem_set_unit]
  exact Iff.rfl

/-- The 128 blocks tile the result: entry `(B, n)` lies in the block of the point with block indices `(B / 16, n / 256)`. -/
theorem cover (i : S256x2048.Idx) :
    ∃ t : Fin cfg0.N, (cfg0.win 12).flush t = true ∧ i ∈ ((cfg0.win 12).blk t).view.set := by
  have hi0 : (i 0).val < 256 := (i 0).isLt
  have hi1 : (i 1).val < 2048 := (i 1).isLt
  obtain ⟨t, ht⟩ := idx_onto ⟨(i 0).val / 16, by omega⟩ ⟨(i 1).val / 256, by omega⟩
  have q0 : win0_12.index t (0 : Fin 2) = (i 0).val / 16 := congrFun ht 0
  have q1 : win0_12.index t (1 : Fin 2) = (i 1).val / 256 := congrFun ht 1
  refine ⟨t, flush0_12 t, ?_⟩
  rw [mem_blk]
  intro a
  match a with
  | ⟨0, _⟩ => show win0_12.index t (0 : Fin 2) * 16 ≤ (i 0).val ∧ (i 0).val < win0_12.index t (0 : Fin 2) * 16 + 16; omega
  | ⟨1, _⟩ => show win0_12.index t (1 : Fin 2) * 256 ≤ (i 1).val ∧ (i 1).val < win0_12.index t (1 : Fin 2) * 256 + 256; omega

/-- The result array after the run. -/
theorem final (c : Dev nD) : (dats m 0 c).arrAt 12 cfg0.N = result m c :=
  (dats m 0 c).arrAt_eq_of_cover 12 (result m c) (fun t _ => flushed_eq m c t) (fun i => cover i)

/-- The kernel's run: it terminates without a fault, the result array holds the node scores under the kernel's
    scale, and the arguments are unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11) :=
  (θ_run defs _ _).mono (fun r h c => ⟨(h c).1.trans (final m c), (h c).2⟩) (Value.run_blocks m ρ)

end Cert.KernelIdeal.ArrayValue

end
-- ==== Proof.RefRead.lean ====
/-
  The reference's result, entry by entry. The reference lays all 256 × 2048 nodes out as 524288 rows of 64
  features, runs the same three affine layers as whole-array products, selects by the mask laid out the same
  way, and lays the 524288 results back out as 256 × 2048. Row `B · 2048 + n` is node `n` of batch element
  `B`, whose features are columns `n · 64 … n · 64 + 63` of the observation array's row `B`. Read at
  `(B, n)`, the result is that node's score under the reference's spelling of the normalisation's scale,
  gain over the root of the shifted variance, or the fill value where the mask word is zero.
-/
import proofs.«168998_j43997644980641_1_alg».proof.Proof.Gen.ReferenceIdeal.Read
import proofs.«168998_j43997644980641_1_alg».proof.Proof.Network

open scoped BigOperators

noncomputable section

namespace Cert.ReferenceIdeal.NodeValue

open Cert.ReferenceIdeal Cert.ReferenceIdeal.Gen Cert.ReferenceIdeal.Read Idealize.ShloMosaic Idealize.ShloMosaic.ValueIdx

/-! ## Where each operand is read

Row `B · 2048 + n` of the 524288-row layout is node `(B, n)`; each equation below says which entry of an
argument array the reference reads for node `i = (B, n)`, hidden units `k`, `l` and feature `q`. -/

/-- The mask word of row `B · 2048 + n` is the mask's entry `(B, n)`. -/
theorem mask_index (i : S256x2048.Idx) : idx_main_v28 (idx_main_v32 i) = i := by
  have h0 : (i 0).val < 256 := (i 0).isLt
  have h1 : (i 1).val < 2048 := (i 1).isLt
  funext a; apply Fin.ext
  match a with
  | ⟨0, _⟩ => show (((i 0).val * 2048 + (i 1).val) / 1 * 1 + 0) / 2048 = (i 0).val; omega
  | ⟨1, _⟩ => show (((i 0).val * 2048 + (i 1).val) / 1 * 1 + 0) % 2048 = (i 1).val; omega

/-- Feature `q` of row `B · 2048 + n` is the observation array's entry `(B, n · 64 + q)`. -/
theorem obs_index (i : S256x2048.Idx) (k l : Fin 256) (q : Fin 64) :
    idx_main_v0 (lidx_main_v1 (lidx_main_v19 (lidx_main_v24 (idx_main_v32 i) k) l) q)
      = ix2 (i 0) ⟨(i 1).val * 64 + q.val, by
        have h1 : (i 1).val < 2048 := (i 1).isLt
        have hq : q.val < 64 := q.isLt
        omega⟩ := by
  have h0 : (i 0).val < 256 := (i 0).isLt
  have h1 : (i 1).val < 2048 := (i 1).isLt
  have hq : q.val < 64 := q.isLt
  funext a; apply Fin.ext
  match a with
  | ⟨0, _⟩ => show (((i 0).val * 2048 + (i 1).val) / 1 * 64 + q.val) / 131072 = (i 0).val; omega
  | ⟨1, _⟩ => show (((i 0).val * 2048 + (i 1).val) / 1 * 64 + q.val) % 131072 = (i 1).val * 64 + q.val; omega

theorem w1_index (i : S256x2048.Idx) (k l : Fin 256) (q : Fin 64) :
    ridx_main_v1 (lidx_main_v19 (lidx_main_v24 (idx_main_v32 i) k) l) q = ix2 q l :=
  funext fun a => match a with | ⟨0, _⟩ => rfl | ⟨1, _⟩ => rfl

theorem b1_index (i : S256x2048.Idx) (k l : Fin 256) :
    idx_main_v2 (idx_main_v3 (lidx_main_v19 (lidx_main_v24 (idx_main_v32 i) k) l)) = ix1 l :=
  funext fun a => match a with | ⟨0, _⟩ => rfl

theorem mean_index (i : S256x2048.Idx) (k l : Fin 256) :
    idx_main_v5 (idx_main_v6 (lidx_main_v19 (lidx_main_v24 (idx_main_v32 i) k) l)) = ix1 l :=
  funext fun a => match a with | ⟨0, _⟩ => rfl

theorem scale_index (i : S256x2048.Idx) (k l : Fin 256) :
    idx_main_v12 (idx_main_v13 (lidx_main_v19 (lidx_main_v24 (idx_main_v32 i) k) l)) = ix1 l :=
  funext fun a => match a with | ⟨0, _⟩ => rfl

theorem shift_index (i : S256x2048.Idx) (k l : Fin 256) :
    idx_main_v15 (idx_main_v16 (lidx_main_v19 (lidx_main_v24 (idx_main_v32 i) k) l)) = ix1 l :=
  funext fun a => match a with | ⟨0, _⟩ => rfl

theorem w2_index (i : S256x2048.Idx) (k l : Fin 256) :
    ridx_main_v19 (lidx_main_v24 (idx_main_v32 i) k) l = ix2 l k :=
  funext fun a => match a with | ⟨0, _⟩ => rfl | ⟨1, _⟩ => rfl

theorem b2_index (i : S256x2048.Idx) (k : Fin 256) :
    idx_main_v20 (idx_main_v21 (lidx_main_v24 (idx_main_v32 i) k)) = ix1 k :=
  funext fun a => match a with | ⟨0, _⟩ => rfl

theorem w3_index (i : S256x2048.Idx) (k : Fin 256) :
    ridx_main_v24 (idx_main_v32 i) k = ix2 k (0 : Fin 1) :=
  funext fun a => match a with | ⟨0, _⟩ => rfl | ⟨1, _⟩ => rfl

theorem b3_index (i : S256x2048.Idx) : idx_main_v25 (idx_main_v26 (idx_main_v32 i)) = ix1 (0 : Fin 1) :=
  funext fun a => match a with | ⟨0, _⟩ => rfl

/-! ## The result -/

/-- The reference's result array is the node scores under the quotient spelling of the scale. -/
theorem reference_eq (x0 : (⟨S256x131072, .f32⟩ : BufTy).Contents (Elt Ideal)) (x1 : (⟨S256x2048, .i32⟩ : BufTy).Contents (Elt Ideal)) (x2 : (⟨S64x256, .f32⟩ : BufTy).Contents (Elt Ideal)) (x3 x4 x5 x6 x7 : (⟨S256, .f32⟩ : BufTy).Contents (Elt Ideal)) (x8 : (⟨S256x256, .f32⟩ : BufTy).Contents (Elt Ideal)) (x9 : (⟨S256, .f32⟩ : BufTy).Contents (Elt Ideal)) (x10 : (⟨S256x1, .f32⟩ : BufTy).Contents (Elt Ideal)) (x11 : (⟨S1, .f32⟩ : BufTy).Contents (Elt Ideal)) :
    val_main_v32 (F := Ideal) x0 x1 x2 x3 x4 x5 x6 x7 x8 x9 x10 x11
      = Network.scores (Network.scaleDiv x4 x7) x0 x1 x2 x3 x5 x6 x8 x9 x10 x11 := by
  funext i
  simp only [val_main_v0_apply, val_main_v1_apply, val_main_v2_apply, val_main_v3_apply, val_main_v4_apply, val_main_v5_apply, val_main_v6_apply, val_main_v7_apply, val_main_v8_apply, val_main_v9_apply, val_main_v10_apply, val_main_v11_apply, val_main_v12_apply, val_main_v13_apply, val_main_v14_apply, val_main_v15_apply, val_main_v16_apply, val_main_v17_apply, val_main_v18_apply, val_main_v19_apply, val_main_v20_apply, val_main_v21_apply, val_main_v22_apply, val_main_v23_apply, val_main_v24_apply, val_main_v25_apply, val_main_v26_apply, val_main_v27_apply, val_main_v28_apply, val_main_v29_apply, val_main_v30_apply, val_main_v31_apply, val_main_v32_apply, val_main_cst_apply, val_main_cst_0_apply, val_main_c_apply, val_main_call0_cst_apply, val_main_call0_v0_apply, val_main_call1_cst_apply, val_main_call1_v0_apply, val_main_call2_v0_apply]
  simp only [mask_index, obs_index, w1_index, b1_index, mean_index, scale_index, shift_index, w2_index, b2_index, w3_index, b3_index,
    Network.scores, Network.row, Network.scaleDiv, Network.eps, Network.fill, Ideal.addf_def, Ideal.subf_def, Ideal.mulf_def,
    Ideal.maximumf_def, Ideal.hostDivf_def, Ideal.hostUnary_sqrt_def, Ideal.ofBits_def, Ideal.ofBits_zero_f32]
  rfl

end Cert.ReferenceIdeal.NodeValue

end
-- ==== Proof.ScaleLaw.lean ====
/-
  The one law that joins the two programs. A batch-norm scale is written two ways: the kernel multiplies
  the gain by the reciprocal square root of the shifted variance, the reference divides the gain by the
  square root of the shifted variance. On the extended reals the two agree wherever the shifted variance
  is strictly positive: for a positive real `v` both are `g · (√v)⁻¹`, and at `v = +∞` both are `0`.
  (Where `v ≤ 0` they differ — the reciprocal root of a negative is `-∞` while the quotient by `-∞` is
  `0` — which is why the statement carries the hypothesis that every shifted variance is positive.)
-/
import Idealize.ShloMosaic.PureOps.Ideal

namespace Cert.ScaleLaw

open Idealize.ShloMosaic

/-- For a strictly positive shifted variance `v`, the gain times the reciprocal root is the gain over the root. -/
theorem mul_rsqrt_eq_div_sqrt (g v : EReal) (hv : 0 < v) : g * Ideal.rsqrt v = Ideal.div g (Ideal.sqrt v) := by
  induction v using EReal.rec with
  | bot => exact absurd hv (not_lt_bot)
  | top =>
    rw [Ideal.rsqrt_top, Ideal.sqrt_top, Ideal.div, if_neg EReal.top_ne_zero, EReal.inv_top]
  | coe r =>
    have hr : 0 < r := by exact_mod_cast hv
    have hs : 0 < Real.sqrt r := Real.sqrt_pos.2 hr
    have hs' : ((Real.sqrt r : ℝ) : EReal) ≠ 0 := by exact_mod_cast hs.ne'
    rw [Ideal.rsqrt_coe, Ideal.sqrt_coe, if_neg (not_lt.2 hr.le), if_neg hr.ne', if_neg (not_lt.2 hr.le), Ideal.div,
      if_neg hs', EReal.coe_inv]

end Cert.ScaleLaw
-- ==== Proof.PositiveVariance.lean ====
/-
  What the precondition says of the running variance. The stated precondition is a conjunction: every float
  input is finite, and every entry of the running variance, shifted by ε, is strictly positive. Only the last
  conjunct is used: it makes the reciprocal root of each shifted variance an honest positive real, so the
  kernel's scale (gain times reciprocal root) and the reference's (gain over root) are the same function of
  the hidden unit.
-/
import proofs.«168998_j43997644980641_1_alg».proof.Pre_finite_inputs
import proofs.«168998_j43997644980641_1_alg».proof.Proof.Network
import proofs.«168998_j43997644980641_1_alg».proof.Proof.ScaleLaw
import Idealize.ShloMosaic.Lib.ReduceAll
import Idealize.ShloMosaic.PureOps.Ideal.Laws

noncomputable section

namespace Cert.Pre_finite_inputs.Domain

open Cert.Pre_finite_inputs Idealize.ShloMosaic Idealize.ShloMosaic.ValueIdx

variable [Facts]

instance : Subsingleton S_.Idx := ⟨fun a b => funext fun d => d.elim0⟩

/-- A one-bit word made from a Boolean is `1` only if the Boolean is true. -/
theorem ofBool_one {b : Bool} (h : BitVec.ofBool b = 1#1) : b = true := by
  cases b
  · exact absurd h (by decide)
  · rfl

/-- Under the precondition every shifted variance is strictly positive. -/
theorem variance_pos (a0 : FVec Ideal S256x131072 .f32) (a1 : IVec S256x2048 32) (a2 : FVec Ideal S64x256 .f32)
    (a3 a4 a5 a6 a7 : FVec Ideal S256 .f32) (a8 : FVec Ideal S256x256 .f32) (a9 : FVec Ideal S256 .f32)
    (a10 : FVec Ideal S256x1 .f32) (a11 : FVec Ideal S1 .f32)
    (h : fn (F := Ideal) a0 a1 a2 a3 a4 a5 a6 a7 a8 a9 a10 a11 = fun _ => 1#1) (l : Fin 256) :
    0 < a7 (ix1 l) + Network.eps := by
  have h0 := congrFun h ValueIdx.ix0
  dsimp only [fn, fn_part1, fn_part2, fn_part3] at h0
  obtain ⟨-, h1⟩ := IntOp.andi_eq_one.1 h0
  have h2 := Host.reduce_andi_all _ _ _ _ _ h1 (ix1 l)
  have h3 : Ideal.cmp .ogt (a7 (ix1 l) + Network.eps) (Ideal.ofBits .f32 0x00000000#32) = 1#1 := h2
  rw [Ideal.ofBits_zero_f32] at h3
  exact of_decide_eq_true (ofBool_one h3)

/-- So the two spellings of the normalisation's scale are one function of the hidden unit. -/
theorem scale_eq (a0 : FVec Ideal S256x131072 .f32) (a1 : IVec S256x2048 32) (a2 : FVec Ideal S64x256 .f32)
    (a3 a4 a5 a6 a7 : FVec Ideal S256 .f32) (a8 : FVec Ideal S256x256 .f32) (a9 : FVec Ideal S256 .f32)
    (a10 : FVec Ideal S256x1 .f32) (a11 : FVec Ideal S1 .f32)
    (h : fn (F := Ideal) a0 a1 a2 a3 a4 a5 a6 a7 a8 a9 a10 a11 = fun _ => 1#1) :
    Network.scaleMul a4 a7 = Network.scaleDiv a4 a7 :=
  funext fun l => Cert.ScaleLaw.mul_rsqrt_eq_div_sqrt _ _ (variance_pos a0 a1 a2 a3 a4 a5 a6 a7 a8 a9 a10 a11 h l)

end Cert.Pre_finite_inputs.Domain

end
-- ==== Proof.lean ====
/-
  A masked per-node perceptron, tiled, against the same computation on whole arrays.

  Each of the 256 × 2048 nodes carries 64 features. Both programs map a node's features through an affine layer
  into 256 hidden units, normalise each unit by `(h - mean) · scale + shift`, rectify, apply a second affine
  layer and rectify, apply a last affine layer to one score, and write the score where the node's mask word is
  nonzero and a fixed fill value elsewhere. The kernel does this block by block over a 16 × 8 grid, 16 × 256
  nodes at a time laid out as 4096 rows; the reference lays all nodes out as 524288 rows at once. On the
  extended reals a matrix product into a zero accumulator and a whole-array product are the same sums, a change
  of float format is the identity, and the two row layouts name the same nodes, so entry by entry both results
  are one function of the arguments — up to the spelling of the normalisation's scale: the kernel multiplies the
  gain by the reciprocal square root of the variance shifted by ε, the reference divides the gain by the square
  root of the shifted variance. These agree exactly where the shifted variance is strictly positive (for a
  nonpositive one the reciprocal root and the quotient take different conventional values), and the stated
  precondition says it is, for every hidden unit: that conjunct is the only part of the precondition the proof
  uses.

  The three programs' runs terminate without a fault and leave their arguments unchanged: for the two kernels by
  their frames, for the reference by its run read back. The idealized kernel is the kernel's own text read over
  the extended reals, with no rewrite to account for.
-/
import proofs.«168998_j43997644980641_1_alg».proof.Defs
import proofs.«168998_j43997644980641_1_alg».proof.Proof.Gen.Kernel
import proofs.«168998_j43997644980641_1_alg».proof.Proof.Gen.Kernel.Skeleton
import proofs.«168998_j43997644980641_1_alg».proof.Proof.Gen.Kernel.Launch
import proofs.«168998_j43997644980641_1_alg».proof.Proof.Gen.Kernel.Points
import proofs.«168998_j43997644980641_1_alg».proof.Proof.Gen.Kernel.Frame
import proofs.«168998_j43997644980641_1_alg».proof.Proof.Gen.KernelIdeal
import proofs.«168998_j43997644980641_1_alg».proof.Proof.Gen.KernelIdeal.Skeleton
import proofs.«168998_j43997644980641_1_alg».proof.Proof.Gen.KernelIdeal.Launch
import proofs.«168998_j43997644980641_1_alg».proof.Proof.Gen.KernelIdeal.Points
import proofs.«168998_j43997644980641_1_alg».proof.Proof.Gen.KernelIdeal.Frame
import proofs.«168998_j43997644980641_1_alg».proof.Proof.Gen.ReferenceIdeal
import proofs.«168998_j43997644980641_1_alg».proof.Proof.Gen.Pre_finite_inputs
import proofs.«168998_j43997644980641_1_alg».proof.Proof.Gen.KernelIdeal.Value
import proofs.«168998_j43997644980641_1_alg».proof.Proof.Gen.ReferenceIdeal.Run
import proofs.«168998_j43997644980641_1_alg».proof.Proof.Gen.ReferenceIdeal.Read
import proofs.«168998_j43997644980641_1_alg».proof.Proof.BlockValue
import proofs.«168998_j43997644980641_1_alg».proof.Proof.RefRead
import proofs.«168998_j43997644980641_1_alg».proof.Proof.PositiveVariance
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments unchanged: its run read back, the result dropped. -/
theorem frame_reference : Cert.frame_ReferenceIdeal := fun m ρ _ =>
  (θ_run Cert.ReferenceIdeal.defs _ _).mono (fun _ h c => (h c).2) (Cert.ReferenceIdeal.Value.run (F := Ideal) m ρ)

/-- Both results are the node scores: the kernel's under the product spelling of the scale, the reference's under
    the quotient spelling, which the precondition's positive shifted variances make one function. -/
theorem algebraic : Cert.algebraic_KernelIdeal_ReferenceIdeal := by
  intro m ρ m' ρ' hpre hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11⟩ := hagree c
  rw [Cert.ReferenceIdeal.Read.val_main_v32_eq, Cert.ReferenceIdeal.NodeValue.reference_eq, a0, a1, a2, a3, a4, a5, a6, a7, a8, a9,
    a10, a11, ← Cert.Pre_finite_inputs.Domain.scale_eq _ _ _ _ _ _ _ _ _ _ _ _ (hpre c)]

theorem claim : Cert.Claim := ⟨Cert.Kernel.Gen.facts, Cert.KernelIdeal.Gen.facts, Cert.ReferenceIdeal.Gen.facts, Cert.Pre_finite_inputs.Gen.facts,
  frame_kernel, frame_kernel_ideal, frame_reference, trivial, algebraic⟩

end Cert.Proof

end
